-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x4096 : Shape := ⟨2, ![1024, 4096]⟩
abbrev S167772 : Shape := ⟨1, ![167772]⟩
abbrev S4096 : Shape := ⟨1, ![4096]⟩
abbrev S_ : Shape := ⟨0, ![]⟩

class Facts : Prop where
  bcast_S_S1024x4096 : S_.BroadcastsInDim S1024x4096 (![] : Fin 0 → Fin S1024x4096.rank)
  reducesTo_S1024x4096_S_d0_1 : S1024x4096.ReducesTo [0, 1] S_
  h_S_ : 0 < S_.numel
  bcast_S_S167772 : S_.BroadcastsInDim S167772 (![] : Fin 0 → Fin S167772.rank)
  reducesTo_S167772_S_d0 : S167772.ReducesTo [0] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg3 : IVec S167772 32) (main_arg4 : IVec S167772 32) (main_v13 : IVec S_ 1) (main_v15 : IVec S167772 1) (main_c_5 : IVec S_ 1) : IVec S_ 1 :=
  let main_v16 : IVec S_ 1 := (fun x v => Host.reduce IntOp.andi x v reducesTo_S167772_S_d0 h_S_) main_v15 main_c_5
  let main_v17 : IVec S_ 1 := andi main_v13 main_v16
  let main_c_6 : IVec S_ 32 := constantI S_ 32 4096#32
  let main_v18 : IVec S167772 32 := broadcastInDim S167772 ![] bcast_S_S167772 main_c_6
  let main_v19 : IVec S167772 1 := cmpi .slt main_arg3 main_v18
  let main_c_7 : IVec S_ 1 := constantI S_ 1 1#1
  let main_v20 : IVec S_ 1 := (fun x v => Host.reduce IntOp.andi x v reducesTo_S167772_S_d0 h_S_) main_v19 main_c_7
  let main_v21 : IVec S_ 1 := andi main_v17 main_v20
  let main_c_8 : IVec S_ 32 := constantI S_ 32 0#32
  let main_v22 : IVec S167772 32 := broadcastInDim S167772 ![] bcast_S_S167772 main_c_8
  let main_v23 : IVec S167772 1 := cmpi .sge main_arg4 main_v22
  let main_c_9 : IVec S_ 1 := constantI S_ 1 1#1
  let main_v24 : IVec S_ 1 := (fun x v => Host.reduce IntOp.andi x v reducesTo_S167772_S_d0 h_S_) main_v23 main_c_9
  let main_v25 : IVec S_ 1 := andi main_v21 main_v24
  let main_c_10 : IVec S_ 32 := constantI S_ 32 4096#32
  let main_v26 : IVec S167772 32 := broadcastInDim S167772 ![] bcast_S_S167772 main_c_10
  let main_v27 : IVec S167772 1 := cmpi .slt main_arg4 main_v26
  let main_c_11 : IVec S_ 1 := constantI S_ 1 1#1
  let main_v28 : IVec S_ 1 := (fun x v => Host.reduce IntOp.andi x v reducesTo_S167772_S_d0 h_S_) main_v27 main_c_11
  let main_v29 : IVec S_ 1 := andi main_v25 main_v28
  main_v29

def fn {F : FTy → Type} [FloatOps F] (main_arg0 : FVec F S1024x4096 .f32) (main_arg1 : FVec F S167772 .f32) (main_arg2 : FVec F S4096 .f32) (main_arg3 : IVec S167772 32) (main_arg4 : IVec S167772 32) : IVec S_ 1 :=
  let main_v0 : FVec F S1024x4096 .f32 := Host.absf main_arg0
  let main_cst : FVec F S_ .f32 := constant S_ .f32 0x7F800000#32
  let main_v1 : FVec F S1024x4096 .f32 := broadcastInDim S1024x4096 ![] bcast_S_S1024x4096 main_cst
  let main_v2 : IVec S1024x4096 1 := cmpf .olt main_v0 main_v1
  let main_c : IVec S_ 1 := constantI S_ 1 1#1
  let main_v3 : IVec S_ 1 := (fun x v => Host.reduce IntOp.andi x v reducesTo_S1024x4096_S_d0_1 h_S_) main_v2 main_c
  let main_v4 : FVec F S167772 .f32 := Host.absf main_arg1
  let main_cst_0 : FVec F S_ .f32 := constant S_ .f32 0x7F800000#32
  let main_v5 : FVec F S167772 .f32 := broadcastInDim S167772 ![] bcast_S_S167772 main_cst_0
  let main_v6 : IVec S167772 1 := cmpf .olt main_v4 main_v5
  let main_c_1 : IVec S_ 1 := constantI S_ 1 1#1
  let main_v7 : IVec S_ 1 := (fun x v => Host.reduce IntOp.andi x v reducesTo_S167772_S_d0 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_c_4 : IVec S_ 32 := constantI S_ 32 0#32
  let main_v14 : IVec S167772 32 := broadcastInDim S167772 ![] bcast_S_S167772 main_c_4
  let main_v15 : IVec S167772 1 := cmpi .sge main_arg3 main_v14
  let main_c_5 : IVec S_ 1 := constantI S_ 1 1#1
  fn_part1 (F := F) main_arg3 main_arg4 main_v13 main_v15 main_c_5
-- ==== Kernel.lean ====
abbrev S1024x4096 : Shape := ⟨2, ![1024, 4096]⟩
abbrev S167772 : Shape := ⟨1, ![167772]⟩
abbrev S4096 : Shape := ⟨1, ![4096]⟩
abbrev S_ : Shape := ⟨0, ![]⟩
abbrev S16777216 : Shape := ⟨1, ![16777216]⟩
abbrev S167772x1 : Shape := ⟨2, ![167772, 1]⟩
abbrev S4096x4096 : Shape := ⟨2, ![4096, 4096]⟩
abbrev S4096x256 : Shape := ⟨2, ![4096, 256]⟩
abbrev S256 : Shape := ⟨1, ![256]⟩
abbrev S1024x256 : Shape := ⟨2, ![1024, 256]⟩
abbrev S1x256 : Shape := ⟨2, ![1, 256]⟩

abbrev nBuf : Space → Nat
  | .hbm => 22
  | .vmem => 7
  | .smem => 0
  | _ => 0

abbrev bufTy : (tb : Table) → Fin (tcTables nBuf tb) → BufTy
  | .hbm, ⟨0, _⟩ => ⟨S1024x4096, .f32⟩
  | .hbm, ⟨1, _⟩ => ⟨S167772, .f32⟩
  | .hbm, ⟨2, _⟩ => ⟨S4096, .f32⟩
  | .hbm, ⟨3, _⟩ => ⟨S167772, .i32⟩
  | .hbm, ⟨4, _⟩ => ⟨S167772, .i32⟩
  | .hbm, ⟨5, _⟩ => ⟨S_, .i32⟩
  | .hbm, ⟨6, _⟩ => ⟨S167772, .i32⟩
  | .hbm, ⟨7, _⟩ => ⟨S167772, .i32⟩
  | .hbm, ⟨8, _⟩ => ⟨S167772, .i32⟩
  | .hbm, ⟨9, _⟩ => ⟨S_, .f32⟩
  | .hbm, ⟨10, _⟩ => ⟨S16777216, .f32⟩
  | .hbm, ⟨11, _⟩ => ⟨S_, .i32⟩
  | .hbm, ⟨12, _⟩ => ⟨S167772, .i32⟩
  | .hbm, ⟨13, _⟩ => ⟨S167772, .i1⟩
  | .hbm, ⟨14, _⟩ => ⟨S_, .i32⟩
  | .hbm, ⟨15, _⟩ => ⟨S167772, .i32⟩
  | .hbm, ⟨16, _⟩ => ⟨S167772, .i32⟩
  | .hbm, ⟨17, _⟩ => ⟨S167772, .i32⟩
  | .hbm, ⟨18, _⟩ => ⟨S167772x1, .i32⟩
  | .hbm, ⟨19, _⟩ => ⟨S16777216, .f32⟩
  | .hbm, ⟨20, _⟩ => ⟨S4096x4096, .f32⟩
  | .hbm, ⟨21, _⟩ => ⟨S1024x4096, .f32⟩
  | .local _ .vmem, ⟨0, _⟩ => ⟨S1024x4096, .f32⟩
  | .local _ .vmem, ⟨1, _⟩ => ⟨S4096x256, .f32⟩
  | .local _ .vmem, ⟨2, _⟩ => ⟨S4096x256, .f32⟩
  | .local _ .vmem, ⟨3, _⟩ => ⟨S256, .f32⟩
  | .local _ .vmem, ⟨4, _⟩ => ⟨S256, .f32⟩
  | .local _ .vmem, ⟨5, _⟩ => ⟨S1024x256, .f32⟩
  | .local _ .vmem, ⟨6, _⟩ => ⟨S1024x256, .f32⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_c_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 1 → Nat :=
  let arg0 : BitVec 32 := BitVec.ofNat 32 (i 0).val
  let c0_i32 : BitVec 32 := 0#32
  ![arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S167772 : S_.BroadcastsInDim S167772 (![] : Fin 0 → Fin S167772.rank)
  bcast_S_S16777216 : S_.BroadcastsInDim S16777216 (![] : Fin 0 → Fin S16777216.rank)
  bcast_S167772_S167772x1_0 : S167772.BroadcastsInDim S167772x1 (![0] : Fin 1 → Fin S167772x1.rank)
  shapeCasts_S16777216_S4096x4096 : S16777216.ShapeCasts S4096x4096
  inb_S1024x4096_S1024x4096_0_0 : ∀ a, (![0, 0] : Fin 2 → Nat) a + S1024x4096.size a ≤ S1024x4096.size a
  h_S1024x4096 : 0 < S1024x4096.numel
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S256_S256_0 : ∀ a, (![0] : Fin 1 → Nat) a + S256.size a ≤ S256.size a
  h_S256 : 0 < S256.numel
  shapeCasts_S256_S1x256 : S256.ShapeCasts S1x256
  broadcasts_S1x256_S1024x256 : S1x256.Broadcasts S1024x256
  inb_S1024x256_S1024x256_0_0 : ∀ a, (![0, 0] : Fin 2 → Nat) a + S1024x256.size a ≤ S1024x256.size a
  h_S1024x256 : 0 < S1024x256.numel
  scatter_S16777216_S167772x1_S167772_n_0_0_1_wf : ScatterDims.WF S16777216 S167772x1 S167772 [] [0] [0] 1
  dot_S1024x4096_S4096x256_S1024x256_1_0_0_1_n_n_wf : DotDims.WF S1024x4096 S4096x256 S1024x256 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S1024x4096.size a
  hwx0_0 : ∀ i : grid0.Coords, EltTy.bits .f32 = 32 ∨ (Rect.block (s := S1024x4096) S1024x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S4096x4096.size a
  hwx0_1 : ∀ i : grid0.Coords, EltTy.bits .f32 = 32 ∨ (Rect.block (s := S4096x4096) S4096x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S4096.size a
  hwx0_2 : ∀ i : grid0.Coords, EltTy.bits .f32 = 32 ∨ (Rect.block (s := S4096) S256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S1024x4096.size a
  hwx0_3 : ∀ i : grid0.Coords, EltTy.bits .f32 = 32 ∨ (Rect.block (s := S1024x4096) S1024x256.size (cc0_transform_3 i) (hinb0_3 i)).WholeWords (EltTy.packing .f32)

variable [Facts₀]

def scatter_S16777216_S167772x1_S167772_n_0_0_1 : ScatterDims S16777216 S167772x1 S167772 where
  updateWindowDims := []
  insertedWindowDims := [0]
  scatterDimsToOperandDims := [0]
  indexVectorDim := 1
  wf := scatter_S16777216_S167772x1_S167772_n_0_0_1_wf
def dot_S1024x4096_S4096x256_S1024x256_1_0_0_1_n_n : DotDims S1024x4096 S4096x256 S1024x256 where
  lhsContracting := [1]
  rhsContracting := [0]
  lhsNonContracting := [0]
  rhsNonContracting := [1]
  lhsBatch := []
  rhsBatch := []
  wf := dot_S1024x4096_S4096x256_S1024x256_1_0_0_1_n_n_wf

abbrev win0_0 : Pipeline.Window sig grid0 :=
  Pipeline.Window.ofSpec (Memref.whole main_arg0) S1024x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v11) S4096x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S1024x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1024x4096 : Shape := ⟨2, ![1024, 4096]⟩
abbrev S167772 : Shape := ⟨1, ![167772]⟩
abbrev S4096 : Shape := ⟨1, ![4096]⟩
abbrev S_ : Shape := ⟨0, ![]⟩
abbrev S167772x1 : Shape := ⟨2, ![167772, 1]⟩
abbrev S1024x167772 : Shape := ⟨2, ![1024, 167772]⟩
abbrev S1x167772 : Shape := ⟨2, ![1, 167772]⟩
abbrev S1x4096 : Shape := ⟨2, ![1, 4096]⟩

abbrev nBuf : Space → Nat
  | .hbm => 31
  | .vmem => 0
  | .smem => 0
  | _ => 0

abbrev bufTy : (tb : Table) → Fin (tcTables nBuf tb) → BufTy
  | .hbm, ⟨0, _⟩ => ⟨S1024x4096, .f32⟩
  | .hbm, ⟨1, _⟩ => ⟨S167772, .f32⟩
  | .hbm, ⟨2, _⟩ => ⟨S4096, .f32⟩
  | .hbm, ⟨3, _⟩ => ⟨S167772, .i32⟩
  | .hbm, ⟨4, _⟩ => ⟨S167772, .i32⟩
  | .hbm, ⟨5, _⟩ => ⟨S_, .i32⟩
  | .hbm, ⟨6, _⟩ => ⟨S167772, .i32⟩
  | .hbm, ⟨7, _⟩ => ⟨S167772, .i1⟩
  | .hbm, ⟨8, _⟩ => ⟨S_, .i32⟩
  | .hbm, ⟨9, _⟩ => ⟨S167772, .i32⟩
  | .hbm, ⟨10, _⟩ => ⟨S167772, .i32⟩
  | .hbm, ⟨11, _⟩ => ⟨S167772, .i32⟩
  | .hbm, ⟨12, _⟩ => ⟨S167772x1, .i32⟩
  | .hbm, ⟨13, _⟩ => ⟨S1024x167772, .f32⟩
  | .hbm, ⟨14, _⟩ => ⟨S1x167772, .f32⟩
  | .hbm, ⟨15, _⟩ => ⟨S1024x167772, .f32⟩
  | .hbm, ⟨16, _⟩ => ⟨S1024x167772, .f32⟩
  | .hbm, ⟨17, _⟩ => ⟨S_, .f32⟩
  | .hbm, ⟨18, _⟩ => ⟨S1024x4096, .f32⟩
  | .hbm, ⟨19, _⟩ => ⟨S_, .i32⟩
  | .hbm, ⟨20, _⟩ => ⟨S167772, .i32⟩
  | .hbm, ⟨21, _⟩ => ⟨S167772, .i1⟩
  | .hbm, ⟨22, _⟩ => ⟨S_, .i32⟩
  | .hbm, ⟨23, _⟩ => ⟨S167772, .i32⟩
  | .hbm, ⟨24, _⟩ => ⟨S167772, .i32⟩
  | .hbm, ⟨25, _⟩ => ⟨S167772, .i32⟩
  | .hbm, ⟨26, _⟩ => ⟨S167772x1, .i32⟩
  | .hbm, ⟨27, _⟩ => ⟨S1024x4096, .f32⟩
  | .hbm, ⟨28, _⟩ => ⟨S1x4096, .f32⟩
  | .hbm, ⟨29, _⟩ => ⟨S1024x4096, .f32⟩
  | .hbm, ⟨30, _⟩ => ⟨S1024x4096, .f32⟩
  | _, _ => ⟨S1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩

abbrev nD : Nat := 1
abbrev τ : Topo := Topo.v7x

variable {F : FTy → Type} [FloatOps F]

class Facts₀ : Prop where
  bcast_S_S167772 : S_.BroadcastsInDim S167772 (![] : Fin 0 → Fin S167772.rank)
  bcast_S167772_S167772x1_0 : S167772.BroadcastsInDim S167772x1 (![0] : Fin 1 → Fin S167772x1.rank)
  bcast_S167772_S1x167772_1 : S167772.BroadcastsInDim S1x167772 (![1] : Fin 1 → Fin S1x167772.rank)
  bcast_S1x167772_S1024x167772_0_1 : S1x167772.BroadcastsInDim S1024x167772 (![0, 1] : Fin 2 → Fin S1024x167772.rank)
  bcast_S_S1024x4096 : S_.BroadcastsInDim S1024x4096 (![] : Fin 0 → Fin S1024x4096.rank)
  bcast_S4096_S1x4096_1 : S4096.BroadcastsInDim S1x4096 (![1] : Fin 1 → Fin S1x4096.rank)
  bcast_S1x4096_S1024x4096_0_1 : S1x4096.BroadcastsInDim S1024x4096 (![0, 1] : Fin 2 → Fin S1024x4096.rank)
  gather_S1024x4096_S167772x1_S1024x167772_0_1_n_n_1_1_10241_wf : GatherDims.WF S1024x4096 S167772x1 S1024x167772 [0] [1] [] [1] [] 1 ![1024, 1]
  scatter_S1024x4096_S167772x1_S1024x167772_0_1_1_1_wf : ScatterDims.WF S1024x4096 S167772x1 S1024x167772 [0] [1] [1] 1

variable [Facts₀]

def gather_S1024x4096_S167772x1_S1024x167772_0_1_n_n_1_1_10241 : GatherDims S1024x4096 S167772x1 S1024x167772 where
  offsetDims := [0]
  collapsedSliceDims := [1]
  operandBatchingDims := []
  startIndicesBatchingDims := []
  startIndexMap := [1]
  indexVectorDim := 1
  sliceSizes := ![1024, 1]
  wf := gather_S1024x4096_S167772x1_S1024x167772_0_1_n_n_1_1_10241_wf
def scatter_S1024x4096_S167772x1_S1024x167772_0_1_1_1 : ScatterDims S1024x4096 S167772x1 S1024x167772 where
  updateWindowDims := [0]
  insertedWindowDims := [1]
  scatterDimsToOperandDims := [1]
  indexVectorDim := 1
  wf := scatter_S1024x4096_S167772x1_S1024x167772_0_1_1_1_wf

class Facts : Prop extends Facts₀ where

variable [Facts]
-- ==== Proof.Spec.lean ====
/-
  The common value of the two programs, as whole-array functions of the five argument arrays.

  A sparse weight matrix of shape [4096, 4096] is given by 167772 stored entries: entry `j` has the value `v j`,
  the row `r j` and the column `c j`; entries that repeat a position add up. The layer is `x · W + bias` for
  activations `x : [1024, 4096]`.

  * `spec`   — the result written entry by entry: at `(b, n)` the sum, over the stored entries whose column is
               `n`, of `x (b, row of the entry) · value of the entry`, plus `bias n`. This is how a
               gather-multiply-scatter evaluation reads.
  * `dense`  — the weight matrix itself: at `(k, n)` the sum of the values stored at row `k`, column `n`.
  * `affine` — a matrix product plus a bias row: at `(b, n)` the sum over `k` of `x (b, k) · w (k, n)`, plus `bias n`.
               This is how a densify-then-multiply evaluation reads.

  `affine x (dense v r c) bias = spec x v bias r c` is the distributive law `x_k · (Σ_j v_j) = Σ_j x_k · v_j` followed
  by regrouping the double sum by entry; the first step fails at infinities of the extended reals, so it is
  stated for real-valued `x` and `v` (Algebra.lean).
-/
import Idealize.ShloMosaic.PureOps.Ideal
import Idealize.ShloMosaic.Lib.ValueIdx

noncomputable section

open scoped BigOperators

namespace Cert.SparseLin

open Idealize.ShloMosaic Idealize.ShloMosaic.ValueIdx

/-- Activations, and the result: 1024 rows of 4096 features. -/
abbrev SX : Shape := ⟨2, ![1024, 4096]⟩
/-- One slot per stored entry of the sparse weight. -/
abbrev SN : Shape := ⟨1, ![167772]⟩
/-- The bias row. -/
abbrev SB : Shape := ⟨1, ![4096]⟩
/-- The dense weight. -/
abbrev SW : Shape := ⟨2, ![4096, 4096]⟩
/-- An index array as the gather and the scatters take it: one index vector of length one per stored entry. -/
abbrev SI : Shape := ⟨2, ![167772, 1]⟩
/-- The per-entry products, one column per stored entry. -/
abbrev SU : Shape := ⟨2, ![1024, 167772]⟩
/-- The dense weight laid out flat, row-major. -/
abbrev SF : Shape := ⟨1, ![16777216]⟩

/-- Every word of an index array, read unsigned, is below 4096; read signed it is then the same non-negative number. -/
def InRange (w : IVec SN 32) : Prop := ∀ j : Fin 167772, (w (ix1 j)).toNat < 4096

/-- Every entry of a float array, at the ideal instance, is a real number (neither infinity). -/
def AllReal {s : Shape} (x : FVec Ideal s .f32) : Prop := ∀ i, ∃ y : ℝ, x i = (y : EReal)

/-- A word as a coordinate on an axis of extent 4096 (total: reduced modulo 4096, the identity on words in range). -/
def coord (w : BitVec 32) : Fin 4096 := ⟨w.toNat % 4096, Nat.mod_lt _ (by norm_num)⟩

theorem coord_val {w : BitVec 32} (h : w.toNat < 4096) : (coord w).val = w.toNat := Nat.mod_eq_of_lt h

/-- The layer's result at row `b`, output feature `n`, entry by entry: the stored entries of column `n`, each
    contributing the activation at its row times its value; plus the bias. -/
def specAt (x : FVec Ideal SX .f32) (v : FVec Ideal SN .f32) (bias : FVec Ideal SB .f32) (r c : IVec SN 32)
    (b : Fin 1024) (n : Fin 4096) : EReal :=
  (∑ j ∈ Finset.univ.filter (fun j : Fin 167772 => (c (ix1 j)).toNat = n.val),
      x (ix2 b (coord (r (ix1 j)))) * v (ix1 j)) + bias (ix1 n)

/-- The layer's result as one array. -/
def spec (x : FVec Ideal SX .f32) (v : FVec Ideal SN .f32) (bias : FVec Ideal SB .f32) (r c : IVec SN 32) :
    FVec Ideal SX .f32 :=
  fun i => specAt x v bias r c (i 0) (i 1)

/-- The dense weight at row `k`, column `n`: the values of the entries stored there, added up. -/
def denseEntry (v : FVec Ideal SN .f32) (r c : IVec SN 32) (k n : Fin 4096) : EReal :=
  ∑ j ∈ Finset.univ.filter (fun j : Fin 167772 => (r (ix1 j)).toNat = k.val ∧ (c (ix1 j)).toNat = n.val), v (ix1 j)

/-- The dense weight as one array. -/
def dense (v : FVec Ideal SN .f32) (r c : IVec SN 32) : FVec Ideal SW .f32 :=
  fun i => denseEntry v r c (i 0) (i 1)

/-- A matrix product plus a bias row, at row `b`, column `n`. -/
def affineAt (x : FVec Ideal SX .f32) (w : FVec Ideal SW .f32) (bias : FVec Ideal SB .f32) (b : Fin 1024) (n : Fin 4096) :
    EReal :=
  (∑ k : Fin 4096, x (ix2 b k) * w (ix2 k n)) + bias (ix1 n)

/-- A matrix product plus a bias row, as one array. -/
def affine (x : FVec Ideal SX .f32) (w : FVec Ideal SW .f32) (bias : FVec Ideal SB .f32) : FVec Ideal SX .f32 :=
  fun i => affineAt x w bias (i 0) (i 1)

end Cert.SparseLin

end
-- ==== Proof.Algebra.lean ====
/-
  Densify-then-multiply equals gather-multiply-scatter, over the reals.

  With `W (k, n) = Σ_{j : row j = k, col j = n} v j`, the product `Σ_k x (b, k) · W (k, n)` is
  `Σ_k Σ_{j : row j = k, col j = n} x (b, k) · v j` by distributing `x (b, k)` over the inner sum, and grouping the
  double sum by the entry `j` instead of by the row `k` — each entry has exactly one row — leaves
  `Σ_{j : col j = n} x (b, row j) · v j`. Distributivity is a law of the reals, not of the extended reals
  (`0 · (∞ + (−∞))`), so the entries of `x` and `v` are taken real and the sums are computed in ℝ, the
  coercion to the extended reals commuting with finite sums and with products.
-/
import proofs.«419696_j11596411699831_2_alg».proof.Proof.Spec

noncomputable section

open scoped BigOperators

namespace Cert.SparseLin

open Idealize.ShloMosaic Idealize.ShloMosaic.ValueIdx

/-- The coercion of the reals into the extended reals commutes with a finite sum. -/
theorem coe_sum {ι : Type} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- Over the reals: a weighted sum over rows `k` of the totals of the entries stored in row `k` (among those a
    predicate `P` keeps) is the sum over the kept entries of each entry times the weight of its own row. -/
theorem regroup {J : Type} [Fintype J] [DecidableEq J] (row : J → Fin 4096) (P : J → Prop) [DecidablePred P]
    (a : Fin 4096 → ℝ) (v : J → ℝ) :
    ∑ k : Fin 4096, a k * ∑ j ∈ Finset.univ.filter (fun j => row j = k ∧ P j), v j
      = ∑ j ∈ Finset.univ.filter P, a (row j) * v j := by
  simp_rw [Finset.mul_sum, Finset.sum_filter]
  rw [Finset.sum_comm]
  refine Finset.sum_congr rfl fun j _ => ?_
  by_cases hP : P j
  · simp only [hP, and_true]
    rw [Finset.sum_ite_eq]
    simp
  · simp [hP]

/-- At one result entry: the product with the dense weight, plus bias, is the entry-by-entry form. -/
theorem affineAt_dense (x : FVec Ideal SX .f32) (v : FVec Ideal SN .f32) (bias : FVec Ideal SB .f32) (r c : IVec SN 32)
    (hx : AllReal x) (hv : AllReal v) (hr : InRange r) (b : Fin 1024) (n : Fin 4096) :
    affineAt x (dense v r c) bias b n = specAt x v bias r c b n := by
  choose x' hx' using hx
  choose v' hv' using hv
  have hd : ∀ k : Fin 4096, dense v r c (ix2 k n)
      = ((∑ j ∈ Finset.univ.filter (fun j : Fin 167772 => coord (r (ix1 j)) = k ∧ (c (ix1 j)).toNat = n.val),
          v' (ix1 j) : ℝ) : EReal) := by
    intro k
    show denseEntry v r c k n = _
    unfold denseEntry
    rw [← coe_sum]
    refine Finset.sum_congr (Finset.filter_congr fun j _ => ?_) (fun j _ => hv' _)
    rw [Fin.ext_iff, coord_val (hr j)]
  unfold affineAt specAt
  refine congrArg (· + bias (ix1 n)) ?_
  simp_rw [hd, hx', hv', ← EReal.coe_mul, coe_sum]
  refine congrArg (fun t : ℝ => (t : EReal)) ?_
  exact regroup (fun j : Fin 167772 => coord (r (ix1 j))) (fun j => (c (ix1 j)).toNat = n.val)
    (fun k => x' (ix2 b k)) (fun j => v' (ix1 j))

/-- As arrays: the product with the dense weight, plus bias, is the entry-by-entry form. -/
theorem affine_dense (x : FVec Ideal SX .f32) (v : FVec Ideal SN .f32) (bias : FVec Ideal SB .f32) (r c : IVec SN 32)
    (hx : AllReal x) (hv : AllReal v) (hr : InRange r) :
    affine x (dense v r c) bias = spec x v bias r c :=
  funext fun i => affineAt_dense x v bias r c hx hv hr (i 0) (i 1)

end Cert.SparseLin

end
-- ==== Proof.PreDecode.lean ====
/-
  The precondition, read back. The printed predicate is a conjunction of seven "for all entries" tests, each folded
  to one bit by `and`: for each of the three float arrays, |entry| < +∞; for each of the two index arrays,
  0 ≤ word and word < 4096 as signed numbers. When the predicate comes out 1, every test passed at every entry:
  a float entry whose absolute value is strictly below +∞ is neither infinity, hence a real number; a word that is
  non-negative as a signed number is the same number read unsigned, hence below 4096 read unsigned.
-/
import proofs.«419696_j11596411699831_2_alg».proof.Proof.Spec
import proofs.«419696_j11596411699831_2_alg».proof.Pre_finite_inputs
import proofs.«419696_j11596411699831_2_alg».proof.Proof.Gen.Pre_finite_inputs
import Idealize.ShloMosaic.Lib.ReduceAll
import Idealize.ShloMosaic.Lib.Affine
import Idealize.ShloMosaic.Lib.ValueIdx

noncomputable section

namespace Cert.SparseLin.PreDecode

open Idealize.ShloMosaic Idealize.ShloMosaic.ValueIdx

/-- The result shape of the folds has exactly one index. -/
instance : Subsingleton Cert.Pre_finite_inputs.S_.Idx := ⟨fun a b => funext fun d => d.elim0⟩

/-- The pattern 0x7F800000 is +∞. -/
theorem inf_eq_top : Ideal.ofBits .f32 0x7F800000#32 = (⊤ : EReal) := by simp [Ideal.ofBits, Ideal.ieee]

/-- An extended real with max(x, -x) < +∞ is a real: at +∞ the maximum is +∞ itself, at -∞ it is -(-∞) = +∞. -/
theorem real_of_abs_lt_inf (x : EReal)
    (h : Ideal.cmp .olt (max x (-x)) (Ideal.ofBits .f32 0x7F800000#32) = 1#1) : ∃ y : ℝ, x = (y : EReal) := by
  rw [inf_eq_top] at h
  induction x using EReal.rec with
  | bot => simp [Ideal.cmp] at h
  | coe y => exact ⟨y, rfl⟩
  | top => simp [Ideal.cmp] at h

/-- A 32-bit word that is ≥ 0 and < 4096 as a signed number is < 4096 as an unsigned one: a non-negative signed
    reading has the top bit clear, and then the two readings agree. -/
theorem toNat_lt_of_signed (w : BitVec 32) (h0 : IntOp.cmpi .sge w 0#32 = 1#1) (h1 : IntOp.cmpi .slt w 4096#32 = 1#1) :
    w.toNat < 4096 := by
  have a := IntOp.cmpi_sge.1 h0
  have b := IntOp.cmpi_slt.1 h1
  have e0 : (0#32 : BitVec 32).toInt = 0 := by decide
  have e1 : (4096#32 : BitVec 32).toInt = 4096 := by decide
  rw [e0] at a
  rw [e1] at b
  have hw := w.isLt
  unfold BitVec.toInt at a b
  split at a <;> omega

/-- The precondition came out 1: the three float arrays are real-valued and the two index arrays are in range. -/
theorem decode [Cert.Pre_finite_inputs.Facts] (x : FVec Ideal SX .f32) (v : FVec Ideal SN .f32) (bias : FVec Ideal SB .f32) (r c : IVec SN 32)
    (h : Cert.Pre_finite_inputs.fn (F := Ideal) x v bias r c = fun _ => 1#1) :
    AllReal x ∧ AllReal v ∧ AllReal bias ∧ InRange r ∧ InRange c := by
  have h0 := congrFun h ValueIdx.ix0
  dsimp only [Cert.Pre_finite_inputs.fn, Cert.Pre_finite_inputs.fn_part1] at h0
  -- the seven tests, joined left to right
  obtain ⟨h0, hc1⟩ := IntOp.andi_eq_one.1 h0
  obtain ⟨h0, hc0⟩ := IntOp.andi_eq_one.1 h0
  obtain ⟨h0, hr1⟩ := IntOp.andi_eq_one.1 h0
  obtain ⟨h0, hr0⟩ := IntOp.andi_eq_one.1 h0
  obtain ⟨h0, hb⟩ := IntOp.andi_eq_one.1 h0
  obtain ⟨hx, hv⟩ := IntOp.andi_eq_one.1 h0
  refine ⟨fun i => ?_, fun i => ?_, fun i => ?_, fun j => ?_, fun j => ?_⟩
  · exact real_of_abs_lt_inf (x i) (Host.reduce_andi_all _ _ _ _ _ hx i)
  · exact real_of_abs_lt_inf (v i) (Host.reduce_andi_all _ _ _ _ _ hv i)
  · exact real_of_abs_lt_inf (bias i) (Host.reduce_andi_all _ _ _ _ _ hb i)
  · exact toNat_lt_of_signed (r (ix1 j)) (Host.reduce_andi_all _ _ _ _ _ hr0 (ix1 j)) (Host.reduce_andi_all _ _ _ _ _ hr1 (ix1 j))
  · exact toNat_lt_of_signed (c (ix1 j)) (Host.reduce_andi_all _ _ _ _ _ hc0 (ix1 j)) (Host.reduce_andi_all _ _ _ _ _ hc1 (ix1 j))

end Cert.SparseLin.PreDecode

end
-- ==== Proof.Gather.lean ====
/-
  Two groups of facts the evaluation of the sparse layer leans on, stated once over the interface's shapes.

  * A gather of whole columns: for activations `x : [1024, 4096]` and one column index per stored entry, the gathered
    array `[1024, 167772]` holds at `(b, j)` the activation `x (b, column j)`. StableHLO's gather reads the start
    index signed and clamps it so that the slice fits; for an index below 4096 neither step changes it.
  * Word arithmetic of an index fix-up "add the extent to a negative index": a word below 4096, and a flat position
    `4096 · r + c` built from two such words, are non-negative when read signed, so the fix-up leaves them alone, and
    the flat position does not wrap (`4096 · 4095 + 4095 < 2 ^ 24`).
-/
import proofs.«419696_j11596411699831_2_alg».proof.Proof.Spec
import Idealize.ShloMosaic.PureOps.Ideal
import Idealize.ShloMosaic.Lib.ValueIdx
import Idealize.ShloMosaic.Lib.Affine

noncomputable section

namespace Cert.SparseLin.Gather

open Idealize.ShloMosaic Idealize.ShloMosaic.ValueIdx Cert.SparseLin

/-! ## Words read signed -/

/-- A 32-bit word below `2 ^ 31` read signed is the number it is read unsigned. -/
theorem toInt_eq_toNat (w : BitVec 32) (h : w.toNat < 2147483648) : w.toInt = (w.toNat : Int) := by
  unfold BitVec.toInt
  split
  · rfl
  · omega

/-- A word that is non-negative when read signed is not below zero: the comparison's bit is `0`. -/
theorem cmpi_slt_zero_of_lt (w : BitVec 32) (h : w.toNat < 2147483648) : IntOp.cmpi .slt w 0#32 = 0#1 := by
  refine eq_zero_of_ne_one fun h1 => ?_
  have hlt := IntOp.cmpi_slt.mp h1
  rw [toInt_eq_toNat w h] at hlt
  have h0 : (0#32 : BitVec 32).toInt = 0 := rfl
  rw [h0] at hlt
  omega

/-! ## The index fix-ups -/

/-- A word below 4096 is kept by "add 4096 if negative". -/
theorem fix_small (w : BitVec 32) (h : w.toNat < 4096) :
    Scalar.select (IntOp.cmpi .slt w 0#32) (IntOp.addi w 4096#32) w = w := by
  rw [cmpi_slt_zero_of_lt w (by omega), select_zero]

/-- The flat position of row `r`, column `c` in a row-major `[4096, 4096]` array, computed on words, is
    `4096 · r + c` without wrapping. -/
theorem lin_toNat (r c : BitVec 32) (hr : r.toNat < 4096) (hc : c.toNat < 4096) :
    (IntOp.addi (IntOp.muli r 4096#32) c).toNat = 4096 * r.toNat + c.toNat := by
  unfold IntOp.addi IntOp.muli
  rw [BitVec.toNat_add, BitVec.toNat_mul]
  have h4 : (4096#32 : BitVec 32).toNat = 4096 := rfl
  rw [h4]
  omega

/-- That flat position is kept by "add 4096 · 4096 if negative". -/
theorem fix_lin (r c : BitVec 32) (hr : r.toNat < 4096) (hc : c.toNat < 4096) :
    Scalar.select (IntOp.cmpi .slt (IntOp.addi (IntOp.muli r 4096#32) c) 0#32)
      (IntOp.addi (IntOp.addi (IntOp.muli r 4096#32) c) 16777216#32) (IntOp.addi (IntOp.muli r 4096#32) c)
    = IntOp.addi (IntOp.muli r 4096#32) c := by
  have hl := lin_toNat r c hr hc
  rw [cmpi_slt_zero_of_lt _ (by omega), select_zero]

/-! ## The gather of whole columns -/

/-- `stablehlo.gather`'s dimension numbers for `x[:, cols]`: operand `[1024, 4096]`, start indices `[167772, 1]`
    (one index vector of length one per stored entry, naming operand axis 1), result `[1024, 167772]`. Result axis 0
    is the offset axis and runs over the operand's whole axis 0; operand axis 1 is collapsed (slice size one). -/
abbrev gatherCols (wf : GatherDims.WF SX SI SU [0] [1] [] [1] [] 1 ![1024, 1]) : GatherDims SX SI SU where
  offsetDims := [0]
  collapsedSliceDims := [1]
  operandBatchingDims := []
  startIndicesBatchingDims := []
  startIndexMap := [1]
  indexVectorDim := 1
  sliceSizes := ![1024, 1]
  wf := wf

/-- The clamp of a start index on an axis of extent 4096 with slice size one, at a word below 4096: the word
    itself, which is also its residue modulo 4096. -/
theorem clamp_eq (w : BitVec 32) (h : w.toNat < 4096) : min w.toInt.toNat (4096 - 1) = w.toNat % 4096 := by
  rw [toInt_eq_toNat w (by omega), Int.toNat_natCast, Nat.mod_eq_of_lt h]
  omega

/-- THE GATHER READ AT `(b, j)`: the activation at row `b` and the column the `j`-th index names. -/
theorem gather_cols_apply {α : Type} (wf : GatherDims.WF SX SI SU [0] [1] [] [1] [] 1 ![1024, 1])
    (x : SX.Idx → α) (idx : IVec SI 32)
    (hidx : ∀ j : Fin 167772, (idx (ix2 j (0 : Fin 1))).toNat < 4096) (b : Fin 1024) (j : Fin 167772) :
    Host.gather (gatherCols wf) x idx (ix2 b j) = x (ix2 b (coord (idx (ix2 j (0 : Fin 1))))) := by
  unfold Host.gather
  congr 1
  funext a
  refine Fin.ext ?_
  match a with
  | ⟨0, _⟩ =>
    -- axis 0: not in the start index map, not batching, kept: start 0, batch 0, offset the result's coordinate `b`
    show (gatherCols wf).start (ix2 b j) idx 0 + (gatherCols wf).batchCoord (ix2 b j) 0
      + (gatherCols wf).offCoord (ix2 b j) 0 = b.val
    rw [GatherDims.batchCoord_eq_zero _ _ _ List.not_mem_nil]
    unfold GatherDims.start
    rw [dif_neg (show (0 : Fin 2) ∉ (gatherCols wf).startIndexMap from
      show (0 : Fin 2) ∉ ([1] : List (Fin 2)) by decide)]
    unfold GatherDims.offCoord
    rw [dif_pos (show (0 : Fin 2) ∈ (gatherCols wf).sKept from
      (GatherDims.mem_sKept _ _).mpr ⟨show (0 : Fin 2) ∉ ([1] : List (Fin 2)) by decide, List.not_mem_nil⟩)]
    -- the one offset axis: whatever position is asked of a one-element list, it holds axis 0
    have key : ∀ (i : Nat) (h : i < ([0] : List (Fin 2)).length), ([0] : List (Fin 2))[i]'h = 0 := by
      intro i h
      have hi : i = 0 := by simpa using h
      subst hi; rfl
    simp only [Nat.zero_add]
    rw [key]
  | ⟨1, _⟩ =>
    -- axis 1: the clamped start index, no batch coordinate, and offset 0 on a collapsed axis
    show (gatherCols wf).start (ix2 b j) idx 1 + (gatherCols wf).batchCoord (ix2 b j) 1
      + (gatherCols wf).offCoord (ix2 b j) 1 = (idx (ix2 j (0 : Fin 1))).toNat % 4096
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (gatherCols wf).startIndexMap from List.mem_singleton.mpr rfl)]
    have hsi : (gatherCols wf).siIdx (ix2 b j) ⟨List.idxOf (1 : Fin 2) (gatherCols wf).startIndexMap,
        List.idxOf_lt_length_iff.2 (List.mem_singleton.mpr rfl)⟩ = ix2 j (0 : Fin 1) := by
      funext c; refine Fin.ext ?_
      match c with
      | ⟨0, _⟩ => rfl
      | ⟨1, _⟩ => rfl
    rw [hsi]
    exact clamp_eq _ (hidx j)

end Cert.SparseLin.Gather

end
-- ==== Proof.Scatter.lean ====
/-
  The host's accumulating scatter read at one index, for the two sets of dimension numbers used here.

  * Columns: updates of shape [1024, 167772] are added into an operand of shape [1024, 4096]; update (b, j) lands at
    (b, idx[j, 0]). The window covers the row axis whole, the one index component names the column.
  * Flat: updates of shape [167772] are added into a flat operand of shape [16777216]; update j lands at idx[j, 0].

  In both cases the index words are assumed in range when read unsigned; the bound is far below 2^31, so the signed
  reading is the same non-negative number, every update lands inside the operand, and none is dropped. The scatter's
  value at an index is then the operand's value plus the sum of the updates whose index word names that position.
-/
import proofs.«419696_j11596411699831_2_alg».proof.Proof.Spec
import Idealize.ShloMosaic.PureOps.Ideal
import Idealize.ShloMosaic.PureOps.Ideal.Laws
import Idealize.ShloMosaic.Lib.ValueIdx

noncomputable section

open scoped BigOperators

namespace Cert.SparseLin.Scatter

open Idealize.ShloMosaic Idealize.ShloMosaic.ValueIdx Cert.SparseLin

/-- Dimension numbers of the column scatter: update (b, j) goes to (b, idx[j, 0]). -/
abbrev scatterCols (wf : ScatterDims.WF SX SI SU [0] [1] [1] 1) : ScatterDims SX SI SU where
  updateWindowDims := [0]
  insertedWindowDims := [1]
  scatterDimsToOperandDims := [1]
  indexVectorDim := 1
  wf := wf

/-- Dimension numbers of the flat scatter: update j goes to idx[j, 0]. -/
abbrev scatterFlat (wf : ScatterDims.WF SF SI SN [] [0] [0] 1) : ScatterDims SF SI SN where
  updateWindowDims := []
  insertedWindowDims := [0]
  scatterDimsToOperandDims := [0]
  indexVectorDim := 1
  wf := wf

/-- A 32-bit word below 2^31 read signed is the same number read unsigned. -/
theorem toInt_of_small (w : BitVec 32) (h : w.toNat < 2 ^ 31) : w.toInt = (w.toNat : Int) := by
  rw [BitVec.toInt_eq_toNat_cond]
  have : 2 * w.toNat < 2 ^ 32 := by omega
  rw [if_pos this]

/-! ## The column scatter -/

section Cols
variable (wf : ScatterDims.WF SX SI SU [0] [1] [1] 1) (idx : IVec SI 32)

/-- On the row axis no index component is read: the window starts at 0. -/
theorem cols_start0 (b : Fin 1024) (j : Fin 167772) : (scatterCols wf).start (ix2 b j) idx (0 : Fin 2) = 0 := by
  unfold ScatterDims.start
  rw [dif_neg (show (0 : Fin 2) ∉ ([1] : List (Fin 2)) from by decide)]

/-- On the column axis the window starts at the index word of entry j, read signed. -/
theorem cols_start1 (b : Fin 1024) (j : Fin 167772) :
    (scatterCols wf).start (ix2 b j) idx (1 : Fin 2) = (idx (ix2 j (0 : Fin 1))).toInt := by
  unfold ScatterDims.start
  rw [dif_pos (show (1 : Fin 2) ∈ (scatterCols wf).scatterDimsToOperandDims from List.mem_singleton.mpr rfl)]
  have hsi : (scatterCols wf).siIdx (ix2 b j) ⟨List.idxOf (1 : Fin 2) (scatterCols wf).scatterDimsToOperandDims,
      List.idxOf_lt_length_iff.2 (List.mem_singleton.mpr rfl)⟩ = ix2 j (0 : Fin 1) := by
    funext a; refine Fin.ext ?_
    match a with
    | ⟨0, _⟩ => rfl
    | ⟨1, _⟩ => rfl
  rw [hsi]

/-- The window coordinate on the row axis is the update's row. -/
theorem cols_window0 (b : Fin 1024) (j : Fin 167772) : (scatterCols wf).window (ix2 b j) (0 : Fin 2) = b.val := by
  unfold ScatterDims.window
  rw [dif_pos (show (0 : Fin 2) ∈ SX.kept ([1] : List (Fin 2)) from by decide)]
  rfl

/-- The column axis is inserted: its window coordinate is 0. -/
theorem cols_window1 (b : Fin 1024) (j : Fin 167772) : (scatterCols wf).window (ix2 b j) (1 : Fin 2) = 0 := by
  unfold ScatterDims.window
  rw [dif_neg (show (1 : Fin 2) ∉ SX.kept ([1] : List (Fin 2)) from by decide)]

/-- With its index word in range, update (b, j) lands at (b, idx[j, 0]). -/
theorem cols_resultIdx (b : Fin 1024) (j : Fin 167772) (h : (idx (ix2 j (0 : Fin 1))).toNat < 4096) :
    (scatterCols wf).resultIdx? (ix2 b j) idx = some (ix2 b ⟨(idx (ix2 j (0 : Fin 1))).toNat, h⟩) := by
  have hI : (idx (ix2 j (0 : Fin 1))).toInt = ((idx (ix2 j (0 : Fin 1))).toNat : Int) :=
    toInt_of_small _ (by omega)
  have hb : b.val < 1024 := b.isLt
  have hs0 : SX.size (0 : Fin 2) = 1024 := rfl
  have hs1 : SX.size (1 : Fin 2) = 4096 := rfl
  have hall : ∀ a, 0 ≤ (scatterCols wf).start (ix2 b j) idx a + (scatterCols wf).window (ix2 b j) a ∧
      (scatterCols wf).start (ix2 b j) idx a + (scatterCols wf).window (ix2 b j) a < SX.size a := by
    refine Fin.forall_fin_two.2 ⟨?_, ?_⟩
    · rw [cols_start0, cols_window0, hs0]; omega
    · rw [cols_start1, cols_window1, hs1, hI]; omega
  unfold ScatterDims.resultIdx?
  rw [dif_pos hall]
  congr 1
  funext a; refine Fin.ext ?_
  match a with
  | ⟨0, _⟩ =>
    show ((scatterCols wf).start (ix2 b j) idx (0 : Fin 2) + (scatterCols wf).window (ix2 b j) (0 : Fin 2)).toNat = b.val
    rw [cols_start0, cols_window0]; omega
  | ⟨1, _⟩ =>
    show ((scatterCols wf).start (ix2 b j) idx (1 : Fin 2) + (scatterCols wf).window (ix2 b j) (1 : Fin 2)).toNat
      = (idx (ix2 j (0 : Fin 1))).toNat
    rw [cols_start1, cols_window1, hI]; omega

/-- Update (b', j) lands at (b, n) exactly when it is in row b and its index word is n. -/
theorem cols_lands_iff (hidx : ∀ j : Fin 167772, (idx (ix2 j (0 : Fin 1))).toNat < 4096)
    (b' b : Fin 1024) (j : Fin 167772) (n : Fin 4096) :
    (scatterCols wf).resultIdx? (ix2 b' j) idx = some (ix2 b n) ↔ b' = b ∧ (idx (ix2 j (0 : Fin 1))).toNat = n.val := by
  rw [cols_resultIdx wf idx b' j (hidx j), Option.some_inj]
  constructor
  · intro h
    have h0 := congrFun h (0 : Fin 2)
    have h1 := congrFun h (1 : Fin 2)
    exact ⟨h0, congrArg Fin.val h1⟩
  · rintro ⟨rfl, h⟩
    funext a
    match a with
    | ⟨0, _⟩ => rfl
    | ⟨1, _⟩ => exact Fin.ext h

end Cols

/-- THE COLUMN SCATTER AT (b, n): the operand there plus the updates of row b whose index word is n. -/
theorem scatterAdd_cols_apply (wf : ScatterDims.WF SX SI SU [0] [1] [1] 1) (x0 : FVec Ideal SX .f32) (idx : IVec SI 32)
    (upd : FVec Ideal SU .f32)
    (hidx : ∀ j : Fin 167772, (idx (ix2 j (0 : Fin 1))).toNat < 4096) (b : Fin 1024) (n : Fin 4096) :
    Host.scatterAdd (F := Ideal) (scatterCols wf) x0 idx upd (ix2 b n)
      = x0 (ix2 b n) + ∑ j ∈ Finset.univ.filter (fun j : Fin 167772 => (idx (ix2 j (0 : Fin 1))).toNat = n.val), upd (ix2 b j) := by
  show x0 (ix2 b n) + ∑ u ∈ Finset.univ.filter (fun u => (scatterCols wf).resultIdx? u idx = some (ix2 b n)), upd u = _
  refine congrArg (fun t => x0 (ix2 b n) + t) ?_
  refine Finset.sum_nbij' (fun u : SU.Idx => (u 1 : Fin 167772)) (fun j : Fin 167772 => (ix2 b j : SU.Idx)) ?_ ?_ ?_ ?_ ?_
  · intro u hu
    obtain ⟨b', j, rfl⟩ : ∃ (b' : Fin 1024) (j : Fin 167772), u = ix2 b' j := ⟨u 0, u 1, eq_ix2 u⟩
    have h := (cols_lands_iff wf idx hidx b' b j n).1 (Finset.mem_filter.1 hu).2
    exact Finset.mem_filter.2 ⟨Finset.mem_univ _, h.2⟩
  · intro j hj
    exact Finset.mem_filter.2 ⟨Finset.mem_univ _, (cols_lands_iff wf idx hidx b b j n).2 ⟨rfl, (Finset.mem_filter.1 hj).2⟩⟩
  · intro u hu
    obtain ⟨b', j, rfl⟩ : ∃ (b' : Fin 1024) (j : Fin 167772), u = ix2 b' j := ⟨u 0, u 1, eq_ix2 u⟩
    have h := (cols_lands_iff wf idx hidx b' b j n).1 (Finset.mem_filter.1 hu).2
    show ix2 b j = ix2 b' j
    rw [h.1]
  · intro j _
    rfl
  · intro u hu
    obtain ⟨b', j, rfl⟩ : ∃ (b' : Fin 1024) (j : Fin 167772), u = ix2 b' j := ⟨u 0, u 1, eq_ix2 u⟩
    have h := (cols_lands_iff wf idx hidx b' b j n).1 (Finset.mem_filter.1 hu).2
    show upd (ix2 b' j) = upd (ix2 b j)
    rw [h.1]

/-! ## The flat scatter -/

section Flat
variable (wf : ScatterDims.WF SF SI SN [] [0] [0] 1) (idx : IVec SI 32)

/-- The window starts at the index word of entry j, read signed. -/
theorem flat_start (j : Fin 167772) :
    (scatterFlat wf).start (ix1 j) idx (0 : Fin 1) = (idx (ix2 j (0 : Fin 1))).toInt := by
  unfold ScatterDims.start
  rw [dif_pos (show (0 : Fin 1) ∈ (scatterFlat wf).scatterDimsToOperandDims from List.mem_singleton.mpr rfl)]
  have hsi : (scatterFlat wf).siIdx (ix1 j) ⟨List.idxOf (0 : Fin 1) (scatterFlat wf).scatterDimsToOperandDims,
      List.idxOf_lt_length_iff.2 (List.mem_singleton.mpr rfl)⟩ = ix2 j (0 : Fin 1) := by
    funext a; refine Fin.ext ?_
    match a with
    | ⟨0, _⟩ => rfl
    | ⟨1, _⟩ => rfl
  rw [hsi]

/-- The operand's one axis is inserted: its window coordinate is 0. -/
theorem flat_window (j : Fin 167772) : (scatterFlat wf).window (ix1 j) (0 : Fin 1) = 0 := by
  unfold ScatterDims.window
  rw [dif_neg (show (0 : Fin 1) ∉ SF.kept ([0] : List (Fin 1)) from by decide)]

/-- With its index word in range, update j lands at idx[j, 0]. -/
theorem flat_resultIdx (j : Fin 167772) (h : (idx (ix2 j (0 : Fin 1))).toNat < 16777216) :
    (scatterFlat wf).resultIdx? (ix1 j) idx = some (ix1 ⟨(idx (ix2 j (0 : Fin 1))).toNat, h⟩) := by
  have hI : (idx (ix2 j (0 : Fin 1))).toInt = ((idx (ix2 j (0 : Fin 1))).toNat : Int) :=
    toInt_of_small _ (by omega)
  have hs0 : SF.size (0 : Fin 1) = 16777216 := rfl
  have hall : ∀ a, 0 ≤ (scatterFlat wf).start (ix1 j) idx a + (scatterFlat wf).window (ix1 j) a ∧
      (scatterFlat wf).start (ix1 j) idx a + (scatterFlat wf).window (ix1 j) a < SF.size a := by
    intro a
    obtain rfl : a = 0 := Subsingleton.elim _ _
    rw [flat_start, flat_window, hs0, hI]; omega
  unfold ScatterDims.resultIdx?
  rw [dif_pos hall]
  congr 1
  funext a; refine Fin.ext ?_
  obtain rfl : a = 0 := Subsingleton.elim _ _
  show ((scatterFlat wf).start (ix1 j) idx (0 : Fin 1) + (scatterFlat wf).window (ix1 j) (0 : Fin 1)).toNat
    = (idx (ix2 j (0 : Fin 1))).toNat
  rw [flat_start, flat_window, hI]; omega

/-- Update j lands at i exactly when its index word is i. -/
theorem flat_lands_iff (hidx : ∀ j : Fin 167772, (idx (ix2 j (0 : Fin 1))).toNat < 16777216)
    (j : Fin 167772) (i : Fin 16777216) :
    (scatterFlat wf).resultIdx? (ix1 j) idx = some (ix1 i) ↔ (idx (ix2 j (0 : Fin 1))).toNat = i.val := by
  rw [flat_resultIdx wf idx j (hidx j), Option.some_inj]
  constructor
  · intro h
    exact congrArg Fin.val (congrFun h (0 : Fin 1))
  · intro h
    funext a
    match a with
    | ⟨0, _⟩ => exact Fin.ext h

end Flat

/-- THE FLAT SCATTER AT i: the operand there plus the updates whose index word is i. -/
theorem scatterAdd_flat_apply (wf : ScatterDims.WF SF SI SN [] [0] [0] 1) (x0 : FVec Ideal SF .f32) (idx : IVec SI 32)
    (upd : FVec Ideal SN .f32)
    (hidx : ∀ j : Fin 167772, (idx (ix2 j (0 : Fin 1))).toNat < 16777216) (i : Fin 16777216) :
    Host.scatterAdd (F := Ideal) (scatterFlat wf) x0 idx upd (ix1 i)
      = x0 (ix1 i) + ∑ j ∈ Finset.univ.filter (fun j : Fin 167772 => (idx (ix2 j (0 : Fin 1))).toNat = i.val), upd (ix1 j) := by
  show x0 (ix1 i) + ∑ u ∈ Finset.univ.filter (fun u => (scatterFlat wf).resultIdx? u idx = some (ix1 i)), upd u = _
  refine congrArg (fun t => x0 (ix1 i) + t) ?_
  refine Finset.sum_nbij' (fun u : SN.Idx => (u 0 : Fin 167772)) (fun j : Fin 167772 => (ix1 j : SN.Idx)) ?_ ?_ ?_ ?_ ?_
  · intro u hu
    obtain ⟨j, rfl⟩ : ∃ j : Fin 167772, u = ix1 j := ⟨u 0, eq_ix1 u⟩
    have h := (flat_lands_iff wf idx hidx j i).1 (Finset.mem_filter.1 hu).2
    exact Finset.mem_filter.2 ⟨Finset.mem_univ _, h⟩
  · intro j hj
    exact Finset.mem_filter.2 ⟨Finset.mem_univ _, (flat_lands_iff wf idx hidx j i).2 (Finset.mem_filter.1 hj).2⟩
  · intro u _
    obtain ⟨j, rfl⟩ : ∃ j : Fin 167772, u = ix1 j := ⟨u 0, eq_ix1 u⟩
    rfl
  · intro j _
    rfl
  · intro u _
    obtain ⟨j, rfl⟩ : ∃ j : Fin 167772, u = ix1 j := ⟨u 0, eq_ix1 u⟩
    rfl

end Cert.SparseLin.Scatter

end
-- ==== Proof.RefValue.lean ====
/-
  What the reference computes, entry by entry.

  The reference gathers, for every stored entry `j`, the column `x (·, row j)` of the activations, scales it by the
  entry's value, and adds the scaled column into column `col j` of a zero array; then it adds the bias row. Both
  index arrays first pass through "add 4096 to a negative index", which keeps an index already in `[0, 4096)`.
  So the result at `(b, n)` is `0 + Σ_{j : col j = n} x (b, row j) · v j`, plus `bias n`: the entry-by-entry form
  `spec`. No law of arithmetic beyond `0 + s = s` is used, so nothing here needs the arrays to be finite.
-/
import proofs.«419696_j11596411699831_2_alg».proof.Proof.Spec
import proofs.«419696_j11596411699831_2_alg».proof.Proof.Gather
import proofs.«419696_j11596411699831_2_alg».proof.Proof.Scatter
import proofs.«419696_j11596411699831_2_alg».proof.Proof.Gen.ReferenceIdeal.Read
import Idealize.ShloMosaic.PureOps.Ideal.Laws

noncomputable section

open scoped BigOperators

namespace Cert.SparseLin.RefValue

open Cert.ReferenceIdeal Cert.ReferenceIdeal.Gen Cert.ReferenceIdeal.Read
open Idealize.ShloMosaic Idealize.ShloMosaic.ValueIdx Cert.SparseLin

/-- The row indices as the gather takes them: at entry `j`, the row word itself (in range, so not shifted). -/
theorem rows_at (r : IVec S167772 32) (hr : InRange r) (j : Fin 167772) :
    val_main_v5 (F := Ideal) r (ix2 j (0 : Fin 1)) = r (ix1 j) := by
  rw [val_main_v5_apply]
  have e : idx_main_v5 (ix2 j (0 : Fin 1)) = ix1 j := funext fun a => match a with | ⟨0, _⟩ => rfl
  rw [e]
  exact Gather.fix_small _ (hr j)

/-- The column indices as the scatter takes them: at entry `j`, the column word itself. -/
theorem cols_at (c : IVec S167772 32) (hc : InRange c) (j : Fin 167772) :
    val_main_v16 (F := Ideal) c (ix2 j (0 : Fin 1)) = c (ix1 j) := by
  rw [val_main_v16_apply]
  have e : idx_main_v16 (ix2 j (0 : Fin 1)) = ix1 j := funext fun a => match a with | ⟨0, _⟩ => rfl
  rw [e]
  exact Gather.fix_small _ (hc j)

/-- The scaled gathered column of entry `j`, at row `b`: the activation at the entry's row times the entry's value. -/
theorem contrib_at (x : FVec Ideal S1024x4096 .f32) (v : FVec Ideal S167772 .f32) (r : IVec S167772 32) (hr : InRange r)
    (b : Fin 1024) (j : Fin 167772) :
    val_main_v9 (F := Ideal) x v r (ix2 b j) = x (ix2 b (coord (r (ix1 j)))) * v (ix1 j) := by
  rw [val_main_v9_apply, val_main_v8_apply, val_main_v7_apply]
  have ev : idx_main_v7 (idx_main_v8 (ix2 b j)) = ix1 j := funext fun a => match a with | ⟨0, _⟩ => rfl
  rw [ev]
  unfold val_main_v6
  rw [show gather_S1024x4096_S167772x1_S1024x167772_0_1_n_n_1_1_10241
      = Gather.gatherCols Facts₀.gather_S1024x4096_S167772x1_S1024x167772_0_1_n_n_1_1_10241_wf from rfl,
    Gather.gather_cols_apply _ _ _ (fun j => by rw [rows_at r hr j]; exact hr j), rows_at r hr j]
  rfl

/-- THE REFERENCE'S RESULT is the entry-by-entry form, for index arrays in range. -/
theorem value_eq (x : FVec Ideal S1024x4096 .f32) (v : FVec Ideal S167772 .f32) (bias : FVec Ideal S4096 .f32)
    (r c : IVec S167772 32) (hr : InRange r) (hc : InRange c) :
    val_main_v20 (F := Ideal) x v bias r c = spec x v bias r c := by
  funext i
  obtain ⟨b, n, rfl⟩ : ∃ (b : Fin 1024) (n : Fin 4096), i = ix2 b n := ⟨i 0, i 1, eq_ix2 i⟩
  show _ = specAt x v bias r c b n
  rw [val_main_v20_apply, val_main_v19_apply, val_main_v18_apply]
  have eb : idx_main_v18 (idx_main_v19 (ix2 b n)) = ix1 n := funext fun a => match a with | ⟨0, _⟩ => rfl
  rw [eb]
  unfold val_main_v17
  rw [show scatter_S1024x4096_S167772x1_S1024x167772_0_1_1_1
      = Scatter.scatterCols Facts₀.scatter_S1024x4096_S167772x1_S1024x167772_0_1_1_1_wf from rfl,
    Scatter.scatterAdd_cols_apply _ _ _ _ (fun j => by rw [cols_at c hc j]; exact hc j),
    val_main_v10_apply, val_main_cst_apply]
  unfold specAt
  show (Ideal.ofBits .f32 0x00000000#32 + _) + _ = _
  rw [Ideal.ofBits_zero_f32, zero_add]
  refine congrArg (· + bias (ix1 n)) ?_
  refine Finset.sum_congr (Finset.filter_congr fun j _ => by rw [cols_at c hc j]) (fun j _ => ?_)
  exact contrib_at x v r hr b j

end Cert.SparseLin.RefValue

end
-- ==== Proof.KernelHost.lean ====
/-
  What the kernel's program puts in the dense weight before it launches the matrix product.

  For every stored entry `j` the program forms the flat row-major position `4096 · row j + col j` on 32-bit words,
  passes it through "add 4096 · 4096 to a negative index" (which keeps it: the position is below `2 ^ 24`), adds the
  entry's value into a zero array of `4096 · 4096` elements at that position, and reads the flat array as
  `[4096, 4096]`. Position `4096 · k + n` is hit exactly by the entries with row `k` and column `n` — the two
  coordinates of a position are its quotient and remainder by 4096 — so the weight at `(k, n)` is
  `0 + Σ_{j : row j = k, col j = n} v j`: the array `dense`.
-/
import proofs.«419696_j11596411699831_2_alg».proof.Proof.Spec
import proofs.«419696_j11596411699831_2_alg».proof.Proof.Gather
import proofs.«419696_j11596411699831_2_alg».proof.Proof.Scatter
import proofs.«419696_j11596411699831_2_alg».proof.Proof.Gen.KernelIdeal.Frame
import Idealize.ShloMosaic.Lib.StableHlo.Run
import Idealize.ShloMosaic.Lib.Pipeline.Value
import Idealize.ShloMosaic.PureOps.Ideal.Laws

noncomputable section

open scoped BigOperators

namespace Cert.SparseLin.KernelHost

open Cert.KernelIdeal Cert.KernelIdeal.Gen
open Idealize.ShloMosaic Idealize.ShloMosaic.TcCoe Idealize.SL.Sem Idealize.ShloMosaic.StableHlo
open Idealize.ShloMosaic.ValueIdx Cert.SparseLin

/-- The flat positions, one word per stored entry: `row · 4096 + col`. -/
abbrev flat (r c : IVec S167772 32) : IVec S167772 32 :=
  addi (muli r (broadcastInDim S167772 ![] bcast_S_S167772 (constantI S_ 32 4096#32))) c

/-- The flat positions as the scatter takes them: shifted by `4096 · 4096` where negative, one index vector each. -/
abbrev flatIdx (r c : IVec S167772 32) : IVec S167772x1 32 :=
  broadcastInDim S167772x1 ![0] bcast_S167772_S167772x1_0
    (select (cmpi .slt (flat r c) (broadcastInDim S167772 ![] bcast_S_S167772 (constantI S_ 32 0#32)))
      (addi (flat r c) (broadcastInDim S167772 ![] bcast_S_S167772 (constantI S_ 32 16777216#32))) (flat r c))

/-- The dense weight as the program computes it from the stored entries. -/
abbrev weight (v : FVec Ideal S167772 .f32) (r c : IVec S167772 32) : FVec Ideal S4096x4096 .f32 :=
  shapeCast S4096x4096
    (Host.scatterAdd scatter_S16777216_S167772x1_S167772_n_0_0_1
      (broadcastInDim S16777216 ![] bcast_S_S16777216 (constant (F := Ideal) S_ .f32 0x00000000#32)) (flatIdx r c) v)
    shapeCasts_S16777216_S4096x4096

/-- At entry `j` the index the scatter takes is the unshifted position word. -/
theorem flatIdx_at (r c : IVec S167772 32) (hr : InRange r) (hc : InRange c) (j : Fin 167772) :
    flatIdx r c (ix2 j (0 : Fin 1)) = IntOp.addi (IntOp.muli (r (ix1 j)) 4096#32) (c (ix1 j)) := by
  unfold flatIdx
  rw [broadcastInDim_apply _ bcast_S167772_S167772x1_0 _ (ix2 j (0 : Fin 1)) (ix1 j) (fun a => match a with
    | ⟨0, _⟩ => by show j.val = if (167772 : Nat) = 1 then 0 else j.val; rw [if_neg (by decide)])]
  exact Gather.fix_lin _ _ (hr j) (hc j)

/-- That word is the position `4096 · row + col`, as a number. -/
theorem flatIdx_toNat (r c : IVec S167772 32) (hr : InRange r) (hc : InRange c) (j : Fin 167772) :
    (flatIdx r c (ix2 j (0 : Fin 1))).toNat = 4096 * (r (ix1 j)).toNat + (c (ix1 j)).toNat := by
  rw [flatIdx_at r c hr hc j]
  exact Gather.lin_toNat _ _ (hr j) (hc j)

/-- THE WEIGHT the program computes is the dense form of the stored entries, for index arrays in range. -/
theorem weight_eq (v : FVec Ideal S167772 .f32) (r c : IVec S167772 32) (hr : InRange r) (hc : InRange c) :
    weight v r c = dense v r c := by
  funext i
  obtain ⟨k, n, rfl⟩ : ∃ (k n : Fin 4096), i = ix2 k n := ⟨i 0, i 1, eq_ix2 i⟩
  show _ = denseEntry v r c k n
  have hk := k.isLt
  have hn := n.isLt
  have hpos : 4096 * k.val + n.val < 16777216 := by omega
  unfold weight
  rw [shapeCast_apply _ shapeCasts_S16777216_S4096x4096 (ix2 k n) (ix1 (⟨4096 * k.val + n.val, hpos⟩ : Fin 16777216)) (by
    rw [Shape.rowMajor_val_one, Shape.rowMajor_val_two]
    show 4096 * k.val + n.val = k.val * 4096 + n.val
    omega)]
  rw [show scatter_S16777216_S167772x1_S167772_n_0_0_1
      = Scatter.scatterFlat Facts₀.scatter_S16777216_S167772x1_S167772_n_0_0_1_wf from rfl,
    Scatter.scatterAdd_flat_apply _ _ _ _ (fun j => by
      rw [flatIdx_toNat r c hr hc j]; have := hr j; have := hc j; omega)]
  have hz : (broadcastInDim S16777216 ![] bcast_S_S16777216 (constant (F := Ideal) S_ .f32 0x00000000#32))
      (ix1 (⟨4096 * k.val + n.val, hpos⟩ : Fin 16777216)) = 0 := by
    show Ideal.ofBits .f32 0x00000000#32 = 0
    exact Ideal.ofBits_zero_f32
  rw [hz, zero_add]
  unfold denseEntry
  refine Finset.sum_congr (Finset.filter_congr fun j _ => ?_) (fun _ _ => rfl)
  rw [flatIdx_toNat r c hr hc j]
  have := hr j
  have := hc j
  show 4096 * (r (ix1 j)).toNat + (c (ix1 j)).toNat = 4096 * k.val + n.val ↔ _
  constructor
  · intro h; constructor <;> omega
  · rintro ⟨h1, h2⟩; omega

variable (m : (ℓ : Loc nD τ sig) → Buf (Elt Ideal) ℓ)

/-- The dense weight as the region finds it is the program's term of the three sparse arguments. -/
theorem V_weight (c : Dev nD) :
    (V m c main_v11 : S4096x4096.Idx → EReal)
      = weight (m ((c : Thread nD τ).loc main_arg1)) (m ((c : Thread nD τ).loc main_arg3)) (m ((c : Thread nD τ).loc main_arg4)) := by
  dsimp only [Gen.V, Gen.hostOps0]
  after_results
  rfl

/-- The dense weight as the region finds it, for index arrays in range. -/
theorem V_dense (c : Dev nD) (hr : InRange (m ((c : Thread nD τ).loc main_arg3))) (hc : InRange (m ((c : Thread nD τ).loc main_arg4))) :
    (V m c main_v11 : S4096x4096.Idx → EReal)
      = dense (m ((c : Thread nD τ).loc main_arg1)) (m ((c : Thread nD τ).loc main_arg3)) (m ((c : Thread nD τ).loc main_arg4)) :=
  (V_weight m c).trans (weight_eq _ _ _ hr hc)

end Cert.SparseLin.KernelHost

end
-- ==== Proof.KernelValue.lean ====
/-
  The kernel's run at the ideal values, with its result array named as `Cert.SparseLin.affine`.

  The kernel walks 16 grid points. At point `t` it multiplies the whole activations `[1024, 4096]` by column block `t`
  (`[4096, 256]`) of the dense weight into a zero accumulator, adds block `t` (`[256]`) of the bias broadcast down the
  rows, and writes the `[1024, 256]` result to column block `t` of the output `[1024, 4096]`.

  * `payload_apply` — the body's arithmetic at `(b, q)`: `Σ_k x0 (b, k) · x1 (k, q) + x2 q`;
  * `block_value`   — with the three blocks read off whole arrays, that is `affine` at `(b, 256 t + q)`;
  * `block_index`   — which block each window has at each of the 16 points;
  * `flushed_eq`    — what point `t` writes back is column block `t` of `affine` of the arrays;
  * `cover`         — column `n` lies in block `n / 256`, so the 16 blocks fill the output;
  * `final`, `run`  — after the run the output array is `affine` of the activations, the dense weight and the bias.
-/
import proofs.«419696_j11596411699831_2_alg».proof.Proof.Spec
import proofs.«419696_j11596411699831_2_alg».proof.Proof.Gen.KernelIdeal.Value
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.SparseLin.KernelValue

open Cert.KernelIdeal Cert.KernelIdeal.Gen Idealize.ShloMosaic Idealize.ShloMosaic.TcCoe Idealize.SL.Sem
open Idealize.ShloMosaic.Pipeline (Dat)
open Idealize.ShloMosaic.ValueIdx

/-! ## The block product's index maps, coordinate by coordinate

The contraction runs over the activations' second axis and the weight block's first axis; the result's row is the
activations' row and the result's column is the weight block's column. -/

/-- The left operand is read at the result's row … -/
theorem lhs_row (j : S1024x256.Idx) (k : dot_S1024x4096_S4096x256_S1024x256_1_0_0_1_n_n.contr.Idx) :
    (dot_S1024x4096_S4096x256_S1024x256_1_0_0_1_n_n.lhsIdx j k 0 : ℕ) = j 0 := by
  simp [DotDims.lhsIdx, dot_S1024x4096_S4096x256_S1024x256_1_0_0_1_n_n]; rfl
/-- … and at the contraction position; -/
theorem lhs_col (j : S1024x256.Idx) (k : dot_S1024x4096_S4096x256_S1024x256_1_0_0_1_n_n.contr.Idx) :
    (dot_S1024x4096_S4096x256_S1024x256_1_0_0_1_n_n.lhsIdx j k 1 : ℕ) = k ⟨0, by decide⟩ := by
  simp [DotDims.lhsIdx, dot_S1024x4096_S4096x256_S1024x256_1_0_0_1_n_n]; rfl
/-- the right operand at the contraction position … -/
theorem rhs_row (j : S1024x256.Idx) (k : dot_S1024x4096_S4096x256_S1024x256_1_0_0_1_n_n.contr.Idx) :
    (dot_S1024x4096_S4096x256_S1024x256_1_0_0_1_n_n.rhsIdx j k 0 : ℕ) = k ⟨0, by decide⟩ := by
  simp [DotDims.rhsIdx, dot_S1024x4096_S4096x256_S1024x256_1_0_0_1_n_n]; rfl
/-- … and at the result's column. -/
theorem rhs_col (j : S1024x256.Idx) (k : dot_S1024x4096_S4096x256_S1024x256_1_0_0_1_n_n.contr.Idx) :
    (dot_S1024x4096_S4096x256_S1024x256_1_0_0_1_n_n.rhsIdx j k 1 : ℕ) = j 1 := by
  simp [DotDims.rhsIdx, dot_S1024x4096_S4096x256_S1024x256_1_0_0_1_n_n]; rfl

/-! ## The body's arithmetic at an index -/

/-- The body's result at row `b`, column `q` of the output block: the row of the activations against the column of
    the weight block, summed over the 4096 features, plus the bias block's entry for that column. -/
theorem payload_apply (x0 : Vec Ideal S1024x4096 .f32) (x1 : Vec Ideal S4096x256 .f32) (x2 : Vec Ideal S256 .f32)
    (b : Fin 1024) (q : Fin 256) :
    k0_pay1 x0 x1 x2 (ix2 b q) = (∑ k : Fin 4096, x0 (ix2 b k) * x1 (ix2 k q)) + x2 (ix1 q) := by
  unfold k0_pay1
  rw [addf_apply, shapeCast_self]
  simp only [matmul]
  rw [Ideal.matmul_constant_zero_apply,
    ← Equiv.sum_comp (contrEquiv1 dot_S1024x4096_S4096x256_S1024x256_1_0_0_1_n_n 4096 rfl rfl).symm]
  congr 1
  · refine Finset.sum_congr rfl fun k _ => ?_
    have hl : dot_S1024x4096_S4096x256_S1024x256_1_0_0_1_n_n.lhsIdx (ix2 b q) ((contrEquiv1 dot_S1024x4096_S4096x256_S1024x256_1_0_0_1_n_n 4096 rfl rfl).symm k) = ix2 b k := by
      funext a; apply Fin.ext
      match a with
      | ⟨0, _⟩ => exact lhs_row _ _
      | ⟨1, _⟩ => exact (lhs_col _ _).trans (contrEquiv1_symm_val _ _ _ _ k)
    have hr : dot_S1024x4096_S4096x256_S1024x256_1_0_0_1_n_n.rhsIdx (ix2 b q) ((contrEquiv1 dot_S1024x4096_S4096x256_S1024x256_1_0_0_1_n_n 4096 rfl rfl).symm k) = ix2 k q := by
      funext a; apply Fin.ext
      match a with
      | ⟨0, _⟩ => exact (rhs_row _ _).trans (contrEquiv1_symm_val _ _ _ _ k)
      | ⟨1, _⟩ => exact rhs_col _ _
    rw [hl, hr]
  · rw [broadcastTo_apply _ _ (ix2 b q) (ix2 (0 : Fin 1) q) (fun a => by
        match a with
        | ⟨0, _⟩ => first | rfl | simp
        | ⟨1, _⟩ => first | rfl | simp),
      shapeCast_addUnit_apply ![256] x2 _ (ix2 (0 : Fin 1) q)]
    refine congrArg x2 (funext fun a => ?_)
    match a with
    | ⟨0, _⟩ => rfl

variable (m : (ℓ : Loc nD τ sig) → Buf (Elt Ideal) ℓ) (ρ : Dev nD → PrngReg)

/-! ## One block of the layer -/

/-- The body's result on a column block is the layer on that block. If the three blocks the body loads are the whole
    activations, columns `256 s … 256 s + 255` of the weight and entries `256 s … 256 s + 255` of the bias, then the body's
    result at `(b, q)` is the layer's at `(b, 256 s + q)`: the same sum over the 4096 features plus the same bias entry. -/
theorem block_value (x : FVec Ideal SX .f32) (w : FVec Ideal SW .f32) (bias : FVec Ideal SB .f32)
    (x0 : Vec Ideal S1024x4096 .f32) (x1 : Vec Ideal S4096x256 .f32) (x2 : Vec Ideal S256 .f32)
    (s : ℕ) (hs : s < 16)
    (h0 : ∀ (b : Fin 1024) (k : Fin 4096), x0 (ix2 b k) = x (ix2 b k))
    (h1 : ∀ (k : Fin 4096) (q : Fin 256),
      x1 (ix2 k q) = w (ix2 k (⟨s * 256 + q.val, by have := q.isLt; omega⟩ : Fin 4096)))
    (h2 : ∀ q : Fin 256, x2 (ix1 q) = bias (ix1 (⟨s * 256 + q.val, by have := q.isLt; omega⟩ : Fin 4096)))
    (j : S1024x256.Idx) (i : S1024x4096.Idx) (hi0 : (i 0).val = (j 0).val) (hi1 : (i 1).val = s * 256 + (j 1).val) :
    k0_pay1 x0 x1 x2 j = affine x w bias i := by
  obtain ⟨p, q, rfl⟩ : ∃ (p : Fin 1024) (q : Fin 256), j = ix2 p q := ⟨j 0, j 1, eq_ix2 j⟩
  have e0 : i 0 = p := Fin.ext hi0
  have e1 : i 1 = (⟨s * 256 + q.val, by have := q.isLt; omega⟩ : Fin 4096) := Fin.ext hi1
  rw [payload_apply]
  show _ = affineAt x w bias (i 0) (i 1)
  rw [e0, e1]
  unfold affineAt
  rw [h2]
  congr 1
  exact Finset.sum_congr rfl fun k _ => by rw [h0, h1]

/-! ## Which block each grid point works on -/

theorem hz2 : (![0, 0] : Fin 2 → Nat) = fun _ => 0 := funext fun a => by fin_cases a <;> rfl
theorem hz1 : (![0] : Fin 1 → Nat) = fun _ => 0 := funext fun a => by fin_cases a <;> rfl

/-- Over the 16 grid points: every point reads the whole activations (block (0, 0)); point `t` reads column block `t` of
    the weight, block `t` of the bias, and writes column block `t` of the result. -/
theorem block_index : ∀ t : Fin cfg0.N,
    win0_0.index t (0 : Fin 2) = 0 ∧ win0_0.index t (1 : Fin 2) = 0
    ∧ win0_1.index t (0 : Fin 2) = 0 ∧ win0_1.index t (1 : Fin 2) = t.val
    ∧ win0_2.index t (0 : Fin 1) = t.val
    ∧ win0_3.index t (0 : Fin 2) = 0 ∧ win0_3.index t (1 : Fin 2) = t.val :=
  (by decide +kernel : ∀ t : Fin grid0.N, _)

/-! ## What a grid point writes back -/

/-- Grid point `t` writes back column block `t` of the layer applied to the arrays the region finds. -/
theorem flushed_eq (c : Dev nD) (t : Fin cfg0.N) :
    (dats m 0 c).flushed 3 t
      = ((cfg0.win 3).blk t).view.read (Elt Ideal) (affine (V m c main_arg0) (V m c main_v11) (V m c main_arg2)) := by
  rw [Value.flushed3]
  unfold out0_3
  rw [View.canon_unit_zero hz2]
  simp only [View.ld_unit_zero (S := S1024x4096) hz2, View.ld_unit_zero (S := S4096x256) hz2,
    View.ld_unit_zero (S := S256) hz1]
  obtain ⟨e00, e01, e10, e11, e20, e30, e31⟩ := block_index t
  have ht : t.val < 16 := by have := t.isLt; have hN : cfg0.N = 16 := N_0; omega
  funext j
  show k0_pay1 (iblk m c 0 t) (iblk m c 1 t) (iblk m c 2 t) j
    = affine (V m c main_arg0) (V m c main_v11) (V m c main_arg2) (((cfg0.win 3).blk t).view.emb j)
  refine block_value (V m c main_arg0) (V m c main_v11) (V m c main_arg2) (iblk m c 0 t) (iblk m c 1 t) (iblk m c 2 t)
    t.val ht ?_ ?_ ?_ j (((cfg0.win 3).blk t).view.emb j) ?_ ?_
  · intro b k
    show V m c main_arg0 (((cfg0.win 0).blk t).view.emb (ix2 b k)) = V m c main_arg0 (ix2 b k)
    congr 1; funext a; apply Fin.ext
    match a with
    | ⟨0, _⟩ => show win0_0.index t (0 : Fin 2) * 1024 + 1 * b.val = b.val; omega
    | ⟨1, _⟩ => show win0_0.index t (1 : Fin 2) * 4096 + 1 * k.val = k.val; omega
  · intro k q
    show V m c main_v11 (((cfg0.win 1).blk t).view.emb (ix2 k q)) = V m c main_v11 (ix2 k _)
    congr 1; funext a; apply Fin.ext
    match a with
    | ⟨0, _⟩ => show win0_1.index t (0 : Fin 2) * 4096 + 1 * k.val = k.val; omega
    | ⟨1, _⟩ => show win0_1.index t (1 : Fin 2) * 256 + 1 * q.val = t.val * 256 + q.val; omega
  · intro q
    show V m c main_arg2 (((cfg0.win 2).blk t).view.emb (ix1 q)) = V m c main_arg2 (ix1 _)
    congr 1; funext a; apply Fin.ext
    match a with
    | ⟨0, _⟩ => show win0_2.index t (0 : Fin 1) * 256 + 1 * q.val = t.val * 256 + q.val; omega
  · show win0_3.index t (0 : Fin 2) * 1024 + 1 * (j 0).val = (j 0).val; omega
  · show win0_3.index t (1 : Fin 2) * 256 + 1 * (j 1).val = t.val * 256 + (j 1).val; omega

/-! ## The sixteen column blocks fill the result -/

/-- An index of the result is in point `t`'s block iff each coordinate is in the block's range on its axis. -/
theorem mem_blk (t : Fin cfg0.N) (i : S1024x4096.Idx) :
    i ∈ ((cfg0.win 3).blk t).view.set ↔ ∀ a : Fin 2, win0_3.index t a * S1024x256.size a ≤ (i a).val
      ∧ (i a).val < win0_3.index t a * S1024x256.size a + S1024x256.size a := by
  show i ∈ ((View.whole main_v12).slice (win0_3.rect t)).set ↔ _
  rw [View.set_slice_whole, Rect.mem_set_unit]
  exact Iff.rfl

/-- Column `n` of the result lies in column block `n / 256`, and every row lies in every block. -/
theorem cover (i : S1024x4096.Idx) :
    ∃ t : Fin cfg0.N, (cfg0.win 3).flush t = true ∧ i ∈ ((cfg0.win 3).blk t).view.set := by
  have hi0 : (i 0).val < 1024 := (i 0).isLt
  have hi1 : (i 1).val < 4096 := (i 1).isLt
  obtain ⟨t, ht⟩ : ∃ t : Fin cfg0.N, t.val = (i 1).val / 256 :=
    ⟨⟨(i 1).val / 256, by have hN : cfg0.N = 16 := N_0; omega⟩, rfl⟩
  obtain ⟨-, -, -, -, -, e30, e31⟩ := block_index t
  refine ⟨t, flush0_3 t, ?_⟩
  rw [mem_blk]
  intro a
  match a with
  | ⟨0, _⟩ =>
    show win0_3.index t (0 : Fin 2) * 1024 ≤ (i 0).val ∧ (i 0).val < win0_3.index t (0 : Fin 2) * 1024 + 1024
    omega
  | ⟨1, _⟩ =>
    show win0_3.index t (1 : Fin 2) * 256 ≤ (i 1).val ∧ (i 1).val < win0_3.index t (1 : Fin 2) * 256 + 256
    omega

/-! ## The result array, and the run -/

/-- After the last grid point the result array is the layer applied to the activations and the bias as launched and to
    the weight array the region finds. -/
theorem final (c : Dev nD) :
    (dats m 0 c).arrAt 3 cfg0.N
      = affine (m ((c : Thread nD τ).loc main_arg0)) (V m c main_v11) (m ((c : Thread nD τ).loc main_arg2)) := by
  have h := (dats m 0 c).arrAt_eq_of_cover 3 (affine (V m c main_arg0) (V m c main_v11) (V m c main_arg2))
    (fun t _ => flushed_eq m c t) cover
  rw [V_main_arg0, V_main_arg2] at h
  exact h

/-- The kernel's run at the ideal values: the result array holds the layer, the five arguments are unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c : Thread nD τ).loc main_v12)
        = Cert.SparseLin.affine (m ((c : Thread nD τ).loc main_arg0)) (V m c main_v11) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.SparseLin.KernelValue

end
-- ==== Proof.lean ====
/-
  A sparse linear layer `x · W + bias`, the weight `W : [4096, 4096]` given by 167772 stored entries (value, row,
  column; repeated positions add up), for activations `x : [1024, 4096]`.

  The kernel's program densifies: it scatter-adds the values into a zero array at the flat positions
  `4096 · row + col`, reads the array as `[4096, 4096]` and multiplies, `Σ_k x (b, k) · W (k, n) + bias n`, sixteen
  column blocks of 256 at a time. The reference never builds `W`: it gathers the activation column of each entry's
  row, scales it by the entry's value and scatter-adds it into the entry's output column,
  `Σ_{j : col j = n} x (b, row j) · v j + bias n`.

  The two agree on index arrays in `[0, 4096)` — outside that range they do not: the flat position of
  `(row, col) = (0, 4096)` is that of `(1, 0)`, which the kernel's scatter accepts and the reference's drops — and on
  finite `x` and `v`, by the distributive law `x_k · Σ_j v_j = Σ_j x_k · v_j` and a regrouping of the double sum by
  entry (Algebra.lean); the precondition supplies both facts (PreDecode.lean). Each side is read entry by entry in
  its own module: the reference's gather and scatter-add in RefValue.lean (over Gather.lean and Scatter.lean), the
  kernel's flat scatter-add in KernelHost.lean and its blocked matrix product in KernelValue.lean. Both runs end with
  the result array at `spec` of the arguments (Spec.lean).

  The kernel's rewriting to the ideal instance changed no operation, so `preserves` states nothing; the two kernel
  frames are the generated ones, and the reference's frame is its generated run with the value dropped.
-/
import proofs.«419696_j11596411699831_2_alg».proof.Defs
import proofs.«419696_j11596411699831_2_alg».proof.Proof.Gen.Kernel
import proofs.«419696_j11596411699831_2_alg».proof.Proof.Gen.Kernel.Skeleton
import proofs.«419696_j11596411699831_2_alg».proof.Proof.Gen.Kernel.Launch
import proofs.«419696_j11596411699831_2_alg».proof.Proof.Gen.Kernel.Points
import proofs.«419696_j11596411699831_2_alg».proof.Proof.Gen.Kernel.Frame
import proofs.«419696_j11596411699831_2_alg».proof.Proof.Gen.KernelIdeal
import proofs.«419696_j11596411699831_2_alg».proof.Proof.Gen.KernelIdeal.Skeleton
import proofs.«419696_j11596411699831_2_alg».proof.Proof.Gen.KernelIdeal.Launch
import proofs.«419696_j11596411699831_2_alg».proof.Proof.Gen.KernelIdeal.Points
import proofs.«419696_j11596411699831_2_alg».proof.Proof.Gen.KernelIdeal.Frame
import proofs.«419696_j11596411699831_2_alg».proof.Proof.Gen.ReferenceIdeal
import proofs.«419696_j11596411699831_2_alg».proof.Proof.Gen.Pre_finite_inputs
import proofs.«419696_j11596411699831_2_alg».proof.Proof.Gen.KernelIdeal.Value
import proofs.«419696_j11596411699831_2_alg».proof.Proof.Gen.ReferenceIdeal.Run
import proofs.«419696_j11596411699831_2_alg».proof.Proof.Gen.ReferenceIdeal.Read
import proofs.«419696_j11596411699831_2_alg».proof.Proof.Spec
import proofs.«419696_j11596411699831_2_alg».proof.Proof.Algebra
import proofs.«419696_j11596411699831_2_alg».proof.Proof.PreDecode
import proofs.«419696_j11596411699831_2_alg».proof.Proof.RefValue
import proofs.«419696_j11596411699831_2_alg».proof.Proof.KernelHost
import proofs.«419696_j11596411699831_2_alg».proof.Proof.KernelValue
import Idealize.ShloMosaic.Adequacy
import Idealize.ShloMosaic.Init

noncomputable section

namespace Cert.Proof

open Idealize.ShloMosaic Idealize.ShloMosaic.TcCoe Idealize.SL.Sem Cert.SparseLin

/-- The word-level kernel runs and keeps its arguments: the generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is host operations only: its generated run, the result's value dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation was rewritten on the way to the ideal instance. -/
theorem preserves : Cert.preserves_Kernel_KernelIdeal := trivial

/-- Both programs end with the result at `spec` of the (agreeing) arguments: the kernel's blocked product with the
    densified weight by the distributive law, the reference's gather-scale-scatter directly. -/
theorem algebraic : Cert.algebraic_KernelIdeal_ReferenceIdeal := by
  intro m ρ m' ρ' hpre hagree
  have hd := fun c : Dev Cert.KernelIdeal.nD => PreDecode.decode _ _ _ _ _ (hpre c)
  refine ⟨fun c => spec (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · refine (θ_run Cert.KernelIdeal.defs _ _).mono (fun r h c => ⟨(h c).1.trans ?_, (h c).2⟩) (KernelValue.run m ρ)
    obtain ⟨hx, hv, -, hr, hc⟩ := hd c
    rw [KernelHost.V_dense m c hr hc]
    exact affine_dense _ _ _ _ _ hx hv hr
  · refine (θ_run Cert.ReferenceIdeal.defs _ _).mono (fun r h c => ⟨(h c).1.trans ?_, (h c).2⟩)
      (Cert.ReferenceIdeal.Value.run (F := Ideal) m' ρ')
    obtain ⟨-, -, -, hr, hc⟩ := hd c
    rw [Cert.ReferenceIdeal.Read.val_main_v20_eq, (hagree c).1, (hagree c).2.1, (hagree c).2.2.1, (hagree c).2.2.2.1,
      (hagree c).2.2.2.2]
    exact RefValue.value_eq _ _ _ _ _ hr hc

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
